-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg5 : IVec S800000 32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_c_6 : IVec S_ 32 := constantI S_ 32 4294917296#32
  let main_v19 : IVec S800000 32 := broadcastInDim S800000 ![] bcast_S_S800000 main_c_6
  let main_v20 : IVec S800000 1 := cmpi .sge main_arg5 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v18 main_v21
  let main_c_8 : IVec S_ 32 := constantI S_ 32 50000#32
  let main_v23 : IVec S800000 32 := broadcastInDim S800000 ![] bcast_S_S800000 main_c_8
  let main_v24 : IVec S800000 1 := cmpi .slt main_arg5 main_v23
  let main_c_9 : IVec S_ 1 := constantI S_ 1 1#1
  let main_v25 : IVec S_ 1 := (fun x v => Host.reduce IntOp.andi x v reducesTo_S800000_S_d0 h_S_) main_v24 main_c_9
  let main_v26 : IVec S_ 1 := andi main_v22 main_v25
  main_v26

def fn {F : FTy → Type} [FloatOps F] (main_arg0 : FVec F S50000x512 .f32) (main_arg1 : FVec F S512x256 .f32) (main_arg2 : FVec F S256 .f32) (main_arg3 : FVec F S800000 .f32) (main_arg4 : IVec S800000 32) (main_arg5 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg5 main_v13 main_v16
-- ==== Kernel.lean ====
abbrev S50000x512 : Shape := ⟨2, ![50000, 512]⟩
abbrev S512x256 : Shape := ⟨2, ![512, 256]⟩
abbrev S256 : Shape := ⟨1, ![256]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S1x256 : Shape := ⟨2, ![1, 256]⟩

abbrev nBuf : Space → Nat
  | .hbm => 40
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x256, .f32⟩
  | .hbm, ⟨26, _⟩ => ⟨S800000x256, .i1⟩
  | .hbm, ⟨27, _⟩ => ⟨S_, .f32⟩
  | .hbm, ⟨28, _⟩ => ⟨S800000x256, .f32⟩
  | .hbm, ⟨29, _⟩ => ⟨S800000x256, .f32⟩
  | .hbm, ⟨30, _⟩ => ⟨S800000x1, .f32⟩
  | .hbm, ⟨31, _⟩ => ⟨S800000x256, .f32⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S50000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.TakeWords.lean ====
/-
  Row indices as 32-bit words.

  A take with out-of-range rows filled reads row index w (a signed 32-bit word) in three steps: a negative w is
  wrapped to w + 50000; the wrapped index is tested for 0 ≤ · ≤ 49999; where the test fails the row is replaced by a
  fill value. For −50000 ≤ w < 50000 the test never fails: a negative w wraps into [0, 50000) without overflow
  (w + 50000 is far inside the signed range), and a nonnegative w is below 50000 already.
-/
import Idealize.ShloMosaic.PureOps

namespace Cert.TakeWords

open Idealize.ShloMosaic

theorem ofBool_eq_one (b : Bool) : BitVec.ofBool b = 1#1 ↔ b = true := by cases b <;> decide

/-- The four words the tests compare against, read signed. -/
theorem toInt_lo : (4294917296#32 : BitVec 32).toInt = -50000 := by decide
theorem toInt_hi : (50000#32 : BitVec 32).toInt = 50000 := by decide
theorem toInt_zero : (0#32 : BitVec 32).toInt = 0 := by decide
theorem toInt_top : (49999#32 : BitVec 32).toInt = 49999 := by decide

/-- The two signed comparisons w ≥ −50000 and w < 50000, as inequalities of integers. -/
theorem range_of_cmp (w : BitVec 32) (h0 : IntOp.cmpi .sge w 4294917296#32 = 1#1) (h1 : IntOp.cmpi .slt w 50000#32 = 1#1) :
    -50000 ≤ w.toInt ∧ w.toInt < 50000 := by
  unfold IntOp.cmpi at h0 h1
  rw [ofBool_eq_one] at h0 h1
  simp only [BitVec.slt, BitVec.sle, decide_eq_true_eq] at h0 h1
  rw [toInt_lo] at h0
  rw [toInt_hi] at h1
  exact ⟨h0, h1⟩

/-- A word in [0, 49999] passes both range tests. -/
theorem inside (v : BitVec 32) (a : 0 ≤ v.toInt) (b : v.toInt ≤ 49999) :
    IntOp.andi (IntOp.cmpi .sge v 0#32) (IntOp.cmpi .sle v 49999#32) = 1#1 := by
  have c0 : IntOp.cmpi .sge v 0#32 = 1#1 := by
    unfold IntOp.cmpi; rw [ofBool_eq_one]; simp only [BitVec.sle, decide_eq_true_eq]; rw [toInt_zero]; exact a
  have c1 : IntOp.cmpi .sle v 49999#32 = 1#1 := by
    unfold IntOp.cmpi; rw [ofBool_eq_one]; simp only [BitVec.sle, decide_eq_true_eq]; rw [toInt_top]; exact b
  rw [c0, c1]; decide

/-- A word in [−50000, 50000), wrapped when negative, passes both range tests. -/
theorem wrapped_inside (w : BitVec 32) (h : -50000 ≤ w.toInt ∧ w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  by_cases hneg : w.toInt < 0
  · have hs : IntOp.cmpi .slt w 0#32 = 1#1 := by
      unfold IntOp.cmpi; rw [ofBool_eq_one]; simp only [BitVec.slt, decide_eq_true_eq]; rw [toInt_zero]; exact hneg
    rw [hs]
    show IntOp.andi (IntOp.cmpi .sge (w + 50000#32) 0#32) (IntOp.cmpi .sle (w + 50000#32) 49999#32) = 1#1
    have e : (w + 50000#32).toInt = w.toInt + 50000 := by
      rw [BitVec.toInt_add, toInt_hi]
      exact Int.bmod_eq_of_le_mul_two (by omega) (by omega)
    apply inside <;> omega
  · have hs : IntOp.cmpi .slt w 0#32 = 0#1 := by
      unfold IntOp.cmpi
      have : (w.slt 0#32) = false := by simp only [BitVec.slt, decide_eq_false_iff_not]; rw [toInt_zero]; exact hneg
      rw [this]; rfl
    rw [hs]
    show IntOp.andi (IntOp.cmpi .sge w 0#32) (IntOp.cmpi .sle w 49999#32) = 1#1
    apply inside <;> omega

end Cert.TakeWords
-- ==== Proof.PreRange.lean ====
/-
  The precondition, decoded at the column indices.

  The printed precondition is a conjunction of seven scalar bits: four say every entry of a float input is finite, and
  the last two say every column index is ≥ −50000 and < 50000. Each of those two is an "and" over all 800000
  comparisons, so when the conjunction is one, every comparison is one: every column index lies in [−50000, 50000).
-/
import proofs.«412601_j59665685676453_1_alg».proof.Pre_finite_inputs
import proofs.«412601_j59665685676453_1_alg».proof.Proof.TakeWords
import Idealize.ShloMosaic.Lib.ReduceAll
import Idealize.ShloMosaic.Lib.Affine
import Idealize.ShloMosaic.Lib.ValueIdx

noncomputable section

namespace Cert.PreRange

open Idealize.ShloMosaic Cert.Pre_finite_inputs

instance : Subsingleton S_.Idx := ⟨fun a b => funext fun d => d.elim0⟩

variable {F : FTy → Type} [FloatOps F] [Cert.Pre_finite_inputs.Facts]

/-- Where the precondition holds, every column index is in [−50000, 50000). -/
theorem col_range (a0 : FVec F S50000x512 .f32) (a1 : FVec F S512x256 .f32) (a2 : FVec F S256 .f32)
    (a3 : FVec F S800000 .f32) (row col : IVec S800000 32)
    (h : Cert.Pre_finite_inputs.fn (F := F) a0 a1 a2 a3 row col = fun _ => 1#1) (e : S800000.Idx) :
    -50000 ≤ (col e).toInt ∧ (col e).toInt < 50000 := by
  have h' := congrFun h ValueIdx.ix0
  dsimp only [Cert.Pre_finite_inputs.fn, Cert.Pre_finite_inputs.fn_part1] at h'
  simp only [andi] at h'
  rw [IntOp.andi_eq_one, IntOp.andi_eq_one] at h'
  obtain ⟨⟨-, hge⟩, hlt⟩ := h'
  have g0 : IntOp.cmpi .sge (col e) 4294917296#32 = 1#1 := Host.reduce_andi_all _ _ _ _ _ hge e
  have g1 : IntOp.cmpi .slt (col e) 50000#32 = 1#1 := Host.reduce_andi_all _ _ _ _ _ hlt e
  exact Cert.TakeWords.range_of_cmp (col e) g0 g1

end Cert.PreRange

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KernelProj.lean ====
/-
  The region of the kernel: a row-blocked matrix product.

  The grid has 25 points. Point t stages rows 2000·t … 2000·t + 1999 of the left matrix X [50000 × 512], the whole right
  matrix W [512 × 256], and writes rows 2000·t … 2000·t + 1999 of the product. The body narrows both operands to bf16
  (no change of value over the extended reals) and multiplies into a zero accumulator, so entry (p, q) of what it
  stores is the sum over k of x(p, k) · w(k, q). Row 2000·t + p of X is row p of the block, so the 25 blocks written
  back are the restrictions of ONE function of the arrays, entry (i, j) ↦ Σ_k X(i, k) · W(k, j), and they cover all
  50000 rows: the product array ends holding that function.
-/
import proofs.«412601_j59665685676453_1_alg».proof.Proof.Gen.KernelIdeal.Frame
import proofs.«412601_j59665685676453_1_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

/-- The product of X [50000 × 512] and W [512 × 256] over the extended reals, entry by entry. -/
def proj (X : S50000x512.Idx → EReal) (W : S512x256.Idx → EReal) : S50000x256.Idx → EReal :=
  fun i => ∑ k : Fin 512, X (ix2 (i 0) k) * W (ix2 k (i 1))

/-- What the body stores, at (p, q): the narrowing to bf16 is the identity on values, the accumulator is zero, so the
    entry is the contraction of row p of the left block with column q of the right one. -/
theorem pay_apply (x0 : Vec Ideal S2000x512 .f32) (x1 : Vec Ideal S512x256 .f32) (p : Fin 2000) (q : Fin 256) :
    k0_pay1 x0 x1 (ix2 p q) = ∑ k : Fin 512, x0 (ix2 p k) * x1 (ix2 k q) := by
  unfold k0_pay1
  exact PlainDot.matmul_zero_apply 2000 512 256 none (truncf .bf16 x0 bitsLt_bf16_f32) (truncf .bf16 x1 bitsLt_bf16_f32) p q

/-- The stored block agrees with the whole product wherever the left block's row is the array's row and the right
    block is the right array. -/
theorem pay_eq_proj (x0 : Vec Ideal S2000x512 .f32) (x1 : Vec Ideal S512x256 .f32)
    (X : S50000x512.Idx → EReal) (W : S512x256.Idx → EReal) (y : S2000x256.Idx) (i : S50000x256.Idx)
    (h0 : ∀ k : Fin 512, x0 (ix2 (y 0) k) = X (ix2 (i 0) k))
    (h1 : ∀ k : Fin 512, x1 (ix2 k (y 1)) = W (ix2 k (i 1))) :
    k0_pay1 x0 x1 y = proj X W i := by
  obtain ⟨p, q, rfl⟩ : ∃ (p : Fin 2000) (q : Fin 256), y = ix2 p q := ⟨y 0, y 1, eq_ix2 y⟩
  rw [pay_apply]
  exact Finset.sum_congr rfl fun k _ => congrArg₂ (· * ·) (h0 k) (h1 k)

variable (m : (ℓ : Loc nD τ sig) → Buf (Elt Ideal) ℓ)

theorem hz : (![0, 0] : Fin 2 → Nat) = fun _ => 0 := funext fun a => by fin_cases a <;> rfl

/-- The printed index maps over the grid: the left and the result windows move one block of rows per point, the right
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left block at point t is row 2000·t + p of X. -/
theorem left_block (c : Dev nD) (t : Fin cfg0.N) (y : S2000x512.Idx) (i : S50000x512.Idx)
    (h0 : (i 0).val = 2000 * t.val + (y 0).val) (h1 : (i 1).val = (y 1).val) :
    (iblk m c 0 t : Vec Ideal S2000x512 .f32) y = (V m c main_arg0 : S50000x512.Idx → EReal) i := by
  obtain ⟨e0, e1, -⟩ := idx_facts t
  unfold iblk
  rw [View.read_apply]
  show (V m c main_arg0 : S50000x512.Idx → EReal) _ = V m c main_arg0 i
  congr 1
  funext a
  apply Fin.ext
  match a with
  | ⟨0, _⟩ => show win0_0.index t 0 * 2000 + 1 * (y 0).val = (i 0).val; rw [e0, h0]; omega
  | ⟨1, _⟩ => show win0_0.index t 1 * 512 + 1 * (y 1).val = (i 1).val; rw [e1, h1]; omega

/-- The right block at every point is W. -/
theorem right_block (c : Dev nD) (t : Fin cfg0.N) (y : S512x256.Idx) :
    (iblk m c 1 t : Vec Ideal S512x256 .f32) y = (V m c main_arg1 : S512x256.Idx → EReal) y := by
  obtain ⟨-, -, e2, e3, -⟩ := idx_facts t
  unfold iblk
  rw [View.read_apply]
  show (V m c main_arg1 : S512x256.Idx → EReal) _ = V m c main_arg1 y
  congr 1
  funext a
  apply Fin.ext
  match a with
  | ⟨0, _⟩ => show win0_1.index t 0 * 512 + 1 * (y 0).val = (y 0).val; rw [e2]; omega
  | ⟨1, _⟩ => show win0_1.index t 1 * 256 + 1 * (y 1).val = (y 1).val; rw [e3]; omega

end Cert.KernelIdeal.Proj

end
-- ==== Proof.KernelArray.lean ====
/-
  The product array after the region.

  Point t of the grid writes back rows 2000·t … 2000·t + 1999, all 256 columns: entry (p, q) of that block is the
  contraction of row 2000·t + p of X with column q of W, which is entry (2000·t + p, q) of the whole product. Row r of
  the array lies in the block of point r / 2000, and every point writes its block back, so the blocks cover the array
  and it ends holding the product.
-/
import proofs.«412601_j59665685676453_1_alg».proof.Proof.KernelProj

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ)

/-- What point t writes back is block t of the product of the arrays as the region finds them. -/
theorem flushed_eq (c : Dev nD) (t : Fin cfg0.N) :
    (dats m 0 c).flushed 2 t
      = ((cfg0.win 2).blk t).view.read (Elt Ideal) (proj (V m c main_arg0) (V m c main_arg1)) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x256) hz]
  obtain ⟨-, -, -, -, e4, e5⟩ := idx_facts t
  funext j
  rw [View.read_apply]
  refine pay_eq_proj (iblk m c 0 t) (iblk m c 1 t) (V m c main_arg0) (V m c main_arg1) j _ (fun k => ?_) (fun k => ?_)
  · refine left_block m c t _ _ ?_ rfl
    show win0_2.index t 0 * 2000 + 1 * (j 0).val = 2000 * t.val + (j 0).val
    rw [e4]; omega
  · refine (right_block m c t _).trans (congrArg (V m c main_arg1 : S512x256.Idx → EReal) ?_)
    funext a
    apply Fin.ext
    match a with
    | ⟨0, _⟩ => rfl
    | ⟨1, _⟩ => show (j 1).val = win0_2.index t 1 * 256 + 1 * (j 1).val; rw [e5]; omega

/-- An index of the product array is in point t's block iff each coordinate is in the block's range on its axis. -/
theorem mem_blk (t : Fin cfg0.N) (i : S50000x256.Idx) :
    i ∈ ((cfg0.win 2).blk t).view.set
      ↔ ∀ a : Fin 2, win0_2.index t a * S2000x256.size a ≤ (i a).val
          ∧ (i a).val < win0_2.index t a * S2000x256.size a + S2000x256.size a := by
  show i ∈ ((View.whole main_v0).slice (win0_2.rect t)).set ↔ _
  rw [View.set_slice_whole, Rect.mem_set_unit]
  exact Iff.rfl

/-- Row r is in the block of point r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ =>
    show win0_2.index t 0 * 2000 ≤ (i 0).val ∧ (i 0).val < win0_2.index t 0 * 2000 + 2000
    rw [e4, ht]; omega
  | ⟨1, _⟩ =>
    show win0_2.index t 1 * 256 ≤ (i 1).val ∧ (i 1).val < win0_2.index t 1 * 256 + 256
    rw [e5]; omega

/-- The product array after the region is the product of the argument arrays. -/
theorem final (c : Dev nD) :
    (dats m 0 c).arrAt 2 cfg0.N
      = proj (m ((c : Thread nD τ).loc main_arg0)) (m ((c : Thread nD τ).loc main_arg1)) :=
  (dats m 0 c).arrAt_eq_of_cover 2 (proj (V m c main_arg0) (V m c main_arg1)) (fun t _ => flushed_eq m c t) cover

end Cert.KernelIdeal.Proj

end
-- ==== Proof.KernelTail.lean ====
/-
  The host lines after the region.

  After the product S = X·W has been written, @main takes rows of S at the column indices, scales them and adds them into
  the rows named by the row indices:
    start  — each column index c, wrapped to c + 50000 when negative, as an [800000 × 1] column of start indices;
    kept   — for each edge, whether its start index lies in 0 … 49999 (an "and" over the one-entry index vector),
             laid along the 256 columns;
    taken  — row start(e) of S where kept, a fill value elsewhere;
    finish — taken(e, ·) · vals(e) added into row row(e) of a zero [50000 × 256] array, plus the bias along each row.
  The result buffer after these lines is finish ∘ taken of the contents the lines find: the product array, and the
  four small arguments, which the region does not touch.
-/
import proofs.«412601_j59665685676453_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen

/-- The column indices, wrapped when negative, as a column of start indices. -/
def start (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- Edge by edge, whether the start index is a row of the [50000 × 256] array, along the 256 columns. -/
def kept (col : IVec S800000 32) : IVec S800000x256 1 :=
  broadcastInDim S800000x256 ![0] bcast_S800000_S800000x256_0
    (Host.reduce IntOp.andi
      (andi (cmpi .sge (start col) (broadcastInDim S800000x1 ![] bcast_S_S800000x1 (constantI S_ 32 0#32)))
        (cmpi .sle (start col) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The rows of S at the start indices. -/
def rows (S : FVec Ideal S50000x256 .f32) (col : IVec S800000 32) : FVec Ideal S800000x256 .f32 :=
  Host.gather gather_S50000x256_S800000x1_S800000x256_1_0_n_n_0_1_1256 S (start col)

/-- The rows where kept, the fill value elsewhere. -/
def taken (S : FVec Ideal S50000x256 .f32) (col : IVec S800000 32) : FVec Ideal S800000x256 .f32 :=
  select (kept col) (rows S col)
    (broadcastInDim S800000x256 ![] bcast_S_S800000x256 (constant (F := Ideal) S_ .f32 0x7FC00000#32))

/-- Scale each edge's row, add the rows into their segments, add the bias. -/
def finish (g : FVec Ideal S800000x256 .f32) (bias : FVec Ideal S256 .f32) (vals : FVec Ideal S800000 .f32)
    (row : IVec S800000 32) : FVec Ideal S50000x256 .f32 :=
  addf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 row)
      (mulf g (broadcastInDim S800000x256 ![0, 1] bcast_S800000x1_S800000x256_0_1
        (broadcastInDim S800000x1 ![0] bcast_S800000_S800000x1_0 vals))))
    (broadcastInDim S50000x256 ![0, 1] bcast_S1x256_S50000x256_0_1 (broadcastInDim S1x256 ![1] bcast_S256_S1x256_1 bias))

set_option maxHeartbeats 8000000 in
/-- The result buffer after the lines, from any contents they find. -/
theorem after_lines (Vv : Valuation τ sig (Elt Ideal)) :
    StableHlo.after (List.flatten [hostOps1, hostOps1_1] : List (HloOp τ sig (Elt Ideal))) Vv (Proc.devRef .tc main_v10)
      = finish (taken (Vv (Proc.devRef .tc main_v0)) (Vv (Proc.devRef .tc main_arg5)))
          (Vv (Proc.devRef .tc main_arg2)) (Vv (Proc.devRef .tc main_arg3)) (Vv (Proc.devRef .tc main_arg4)) := by
  simp only [hostOps1, hostOps1_1, List.flatten_cons, List.flatten_nil, List.append_nil, List.cons_append, List.nil_append]
  after_results
  simp only [cast_eq]
  unfold finish taken kept rows start
  rfl

end Cert.KernelIdeal.Tail

end
-- ==== Proof.LibAllOnes.lean ====
/-
  A reduction by "and" of an array of ones.

  A stablehlo.reduce of a one-bit array by "and", started from a one, is one at every result index when every element
  of the array is one: the fold meets only ones. (The converse direction, from the result being one to every element,
  is the library's; this is the direction a mask known to be all true needs.) General in the shapes and axes.
-/
import Idealize.ShloMosaic.PureOps.Reduce

namespace Idealize.ShloMosaic.AllOnes

open Idealize.ShloMosaic

theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ q, init q = 1#1) :
    Host.reduce IntOp.andi x init h hu j = 1#1 := by
  rw [Host.reduce_eq_foldl, hi]
  exact foldl_andi_ones x hx _

end Idealize.ShloMosaic.AllOnes
-- ==== Proof.KernelKept.lean ====
/-
  In range, nothing is filled.

  When every column index lies in [−50000, 50000), every wrapped start index lies in 0 … 49999, so every "kept" bit is
  one and the take with fill is the plain take of rows: the fill value is never selected.
-/
import proofs.«412601_j59665685676453_1_alg».proof.Proof.KernelTail
import proofs.«412601_j59665685676453_1_alg».proof.Proof.LibAllOnes
import proofs.«412601_j59665685676453_1_alg».proof.Proof.TakeWords
import Idealize.ShloMosaic.Lib.ValueIdx

set_option maxRecDepth 16384

noncomputable section

open Idealize.ShloMosaic Idealize.ShloMosaic.TcCoe Idealize.SL.Sem

namespace Cert.KernelIdeal.Tail

open Cert.KernelIdeal Cert.KernelIdeal.Gen

/-- A start index is the wrapped column index of its edge. -/
theorem start_apply (col : IVec S800000 32) (i : S800000x1.Idx) :
    ∃ k : S800000.Idx, start col i
      = Scalar.select (IntOp.cmpi .slt (col k) 0#32) (IntOp.addi (col k) 50000#32) (col k) :=
  ⟨_, rfl⟩

/-- In range, both tests pass at every start index. -/
theorem tests_pass (col : IVec S800000 32) (hcol : ∀ e, -50000 ≤ (col e).toInt ∧ (col e).toInt < 50000)
    (i : S800000x1.Idx) :
    IntOp.andi (IntOp.cmpi .sge (start col i) 0#32) (IntOp.cmpi .sle (start col i) 49999#32) = 1#1 := by
  obtain ⟨k, hk⟩ := start_apply col i
  rw [hk]
  exact Cert.TakeWords.wrapped_inside (col k) (hcol k)

/-- In range, every kept bit is one. -/
theorem kept_all (col : IVec S800000 32) (hcol : ∀ e, -50000 ≤ (col e).toInt ∧ (col e).toInt < 50000)
    (i : S800000x256.Idx) : kept col i = 1#1 := by
  unfold kept
  exact AllOnes.reduce_andi_ones _ _ _ _ _ (fun i' => tests_pass col hcol i') (fun _ => rfl)

/-- In range, the take with fill is the take of rows. -/
theorem taken_eq (S : FVec Ideal S50000x256 .f32) (col : IVec S800000 32)
    (hcol : ∀ e, -50000 ≤ (col e).toInt ∧ (col e).toInt < 50000) : taken S col = rows S col := by
  funext i
  unfold taken
  rw [ValueIdx.select_apply, kept_all col hcol i]
  rfl

end Cert.KernelIdeal.Tail

end
-- ==== Proof.KernelValue.lean ====
/-
  The kernel's result.

  The host lines after the region find the product array holding X·W (the region wrote it) and the four small arguments
  as launched (the region never touches them). With every column index in [−50000, 50000) no row is filled, so the
  result buffer ends at: rows of X·W at the wrapped column indices, each scaled by its edge value, added into the
  segments the row indices name, plus the bias.
-/
import proofs.«412601_j59665685676453_1_alg».proof.Proof.KernelArray
import proofs.«412601_j59665685676453_1_alg».proof.Proof.KernelKept

set_option maxRecDepth 16384

noncomputable section

open Idealize.ShloMosaic Idealize.ShloMosaic.TcCoe Idealize.SL.Sem Idealize.ShloMosaic.StableHlo

namespace Cert.KernelIdeal.Tail

open Cert.KernelIdeal Cert.KernelIdeal.Gen Cert.KernelIdeal.Proj

variable (m : (ℓ : Loc nD τ sig) → Buf (Elt Ideal) ℓ)

/-- The contents the host lines find: the pipeline's arrays as the region leaves them, everything else as launched. -/
abbrev exitV (c : Dev nD) : Valuation τ sig (Elt Ideal) :=
  Pipeline.withArrays (cfgs 0).spec c (V0 m c) (fun w => (dats m 0 c).arrAt w (cfgs 0).N)

/-- The product array there holds X·W. -/
theorem exit_prod (c : Dev nD) :
    exitV m c (Proc.devRef .tc main_v0)
      = proj (m ((c : Thread nD τ).loc main_arg0)) (m ((c : Thread nD τ).loc main_arg1)) :=
  (Pipeline.withArrays_arr spec0 launch0.win.arr_inj c _ _ 2).trans (final m c)

/-- The small arguments there are as launched. -/
theorem exit_arg2 (c : Dev nD) : exitV m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem exit_arg3 (c : Dev nD) : exitV m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem exit_arg4 (c : Dev nD) : exitV m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem exit_arg5 (c : Dev nD) : exitV m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The kernel's result as one function of the argument arrays. -/
def result (c : Dev nD) : FVec Ideal S50000x256 .f32 :=
  finish (rows (proj (m ((c : Thread nD τ).loc main_arg0)) (m ((c : Thread nD τ).loc main_arg1))) (m ((c : Thread nD τ).loc main_arg5)))
    (m ((c : Thread nD τ).loc main_arg2)) (m ((c : Thread nD τ).loc main_arg3)) (m ((c : Thread nD τ).loc main_arg4))

/-- The result buffer after the host lines, with the column indices in range. -/
theorem tail_eq (c : Dev nD)
    (hcol : ∀ e, -50000 ≤ ((m ((c : Thread nD τ).loc main_arg5) : IVec S800000 32) e).toInt
      ∧ ((m ((c : Thread nD τ).loc main_arg5) : IVec S800000 32) e).toInt < 50000) :
    Pipeline.afterTail₀ cfgs (dats m) 0 (V0 m) [hostOps1, hostOps1_1] c main_v10 = result m c := by
  refine (after_lines (exitV m c)).trans ?_
  rw [exit_prod, exit_arg5, exit_arg2, exit_arg3, exit_arg4, taken_eq _ _ hcol]
  rfl

variable (ρ : Dev nD → PrngReg)

/-- The run: with the column indices in range, every execution ends with the result buffer at `result` and the six
    arguments as launched. -/
theorem run (hcol : ∀ (c : Dev nD) e, -50000 ≤ ((m ((c : Thread nD τ).loc main_arg5) : IVec S800000 32) e).toInt
      ∧ ((m ((c : Thread nD τ).loc main_arg5) : IVec S800000 32) e).toInt < 50000) :
    θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (tail_eq m c (hcol c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.RefValue.lean ====
/-
  The reference's result is the kernel's.

  The reference multiplies X and W in one dot product: entry (i, j) is the sum over k of X(i, k) · W(k, j), the same
  function the kernel's 25 row blocks make up. Everything after that — wrap the negative column indices, take the rows,
  scale by the edge values, add into segments, add the bias — is the same list of operations in both programs once the
  kernel's fill is known never to be selected.
-/
import proofs.«412601_j59665685676453_1_alg».proof.Proof.Gen.ReferenceIdeal.Run
import proofs.«412601_j59665685676453_1_alg».proof.Proof.KernelValue
import proofs.«412601_j59665685676453_1_alg».proof.Proof.LibPlainDot

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The reference's dot product is the product, entry by entry. -/
theorem dot_eq (X : FVec Ideal S50000x512 .f32) (W : FVec Ideal S512x256 .f32) :
    Host.dotGeneral dot_S50000x512_S512x256_S50000x256_1_0_0_1_n_n none X W = Cert.KernelIdeal.Proj.proj X W := by
  funext i
  obtain ⟨p, q, rfl⟩ : ∃ (p : Fin 50000) (q : Fin 256), i = ix2 p q := ⟨i 0, i 1, eq_ix2 i⟩
  exact PlainDot.dotGeneral_apply 50000 512 256 none X W p q

/-- The reference run's result term is the kernel's result function of the same arrays. -/
theorem result_eq (X : FVec Ideal S50000x512 .f32) (W : FVec Ideal S512x256 .f32) (bias : FVec Ideal S256 .f32)
    (vals : FVec Ideal S800000 .f32) (row col : IVec S800000 32) :
    addf (Host.scatterAdd scatter_S50000x256_S800000x1_S800000x256_1_0_0_1
        (broadcastInDim S50000x256 ![] bcast_S_S50000x256 (constant (F := Ideal) S_ .f32 0x00000000#32))
        (broadcastInDim S800000x1 ![0] bcast_S800000_S800000x1_0 row)
        (mulf (Host.gather gather_S50000x256_S800000x1_S800000x256_1_0_n_n_0_1_1256
            (Host.dotGeneral dot_S50000x512_S512x256_S50000x256_1_0_0_1_n_n none X W)
            (broadcastInDim S800000x1 ![0] bcast_S800000_S800000x1_0
              (select (cmpi .slt col (broadcastInDim S800000 ![] bcast_S_S800000 (constantI S_ 32 0#32)))
                (addi col (broadcastInDim S800000 ![] bcast_S_S800000 (constantI S_ 32 50000#32))) col)))
          (broadcastInDim S800000x256 ![0, 1] bcast_S800000x1_S800000x256_0_1
            (broadcastInDim S800000x1 ![0] bcast_S800000_S800000x1_0 vals))))
      (broadcastInDim S50000x256 ![0, 1] bcast_S1x256_S50000x256_0_1 (broadcastInDim S1x256 ![1] bcast_S256_S1x256_1 bias))
    = Cert.KernelIdeal.Tail.finish (Cert.KernelIdeal.Tail.rows (Cert.KernelIdeal.Proj.proj X W) col) bias vals row := by
  rw [dot_eq]
  rfl

end Cert.ReferenceIdeal.RefValue

end
-- ==== Proof.lean ====
/-
  A graph-convolution layer: out = segment_sum(vals[e] · (X·W)[col[e], :], row[e]) + bias, over the extended reals.

  The kernel computes the dense projection X·W [50000 × 512]·[512 × 256] in a 25-point grid of row blocks, each block a
  matrix product of bf16-narrowed operands into a zero accumulator (narrowing does not change an extended real), and
  then, on the host, takes rows of the product at the column indices (negative indices wrapped, rows outside 0 … 49999
  replaced by a fill value), scales them by the edge values, adds them into the segments named by the row indices, and
  adds the bias. The reference computes X·W in one dot product and takes the rows without a fill.

  The statement carries the evident domain of the column indices, −50000 ≤ col[e] < 50000: the indices that name a row of
  a 50000-row array, counting from either end. There both programs wrap the index into 0 … 49999, the kernel's range
  test passes at every edge, and its fill is never selected. The 25 row blocks are restrictions of the one function
  (i, j) ↦ Σ_k X(i, k)·W(k, j) and cover the array, which is also what the reference's dot product denotes entry by
  entry; from there on the two programs apply the same operations to the same arrays. The row indices need no
  assumption: both programs hand them to the same segment sum.

  The frames of the two kernel programs are the generated ones; the reference's is its generated run with the result
  forgotten; the idealization rewrote nothing, so there is nothing to preserve.
-/
import proofs.«412601_j59665685676453_1_alg».proof.Defs
import proofs.«412601_j59665685676453_1_alg».proof.Proof.Gen.Kernel
import proofs.«412601_j59665685676453_1_alg».proof.Proof.Gen.Kernel.Skeleton
import proofs.«412601_j59665685676453_1_alg».proof.Proof.Gen.Kernel.Launch
import proofs.«412601_j59665685676453_1_alg».proof.Proof.Gen.Kernel.Points
import proofs.«412601_j59665685676453_1_alg».proof.Proof.Gen.Kernel.Frame
import proofs.«412601_j59665685676453_1_alg».proof.Proof.Gen.KernelIdeal
import proofs.«412601_j59665685676453_1_alg».proof.Proof.Gen.KernelIdeal.Skeleton
import proofs.«412601_j59665685676453_1_alg».proof.Proof.Gen.KernelIdeal.Launch
import proofs.«412601_j59665685676453_1_alg».proof.Proof.Gen.KernelIdeal.Points
import proofs.«412601_j59665685676453_1_alg».proof.Proof.Gen.KernelIdeal.Frame
import proofs.«412601_j59665685676453_1_alg».proof.Proof.Gen.ReferenceIdeal
import proofs.«412601_j59665685676453_1_alg».proof.Proof.Gen.ReferenceIdeal.Run
import proofs.«412601_j59665685676453_1_alg».proof.Proof.Gen.Pre_finite_inputs
import proofs.«412601_j59665685676453_1_alg».proof.Proof.PreRange
import proofs.«412601_j59665685676453_1_alg».proof.Proof.KernelValue
import proofs.«412601_j59665685676453_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result buffer at the same function of the argument arrays: the kernel by its run with
    the column indices in range (decoded from the precondition), the reference by its run and the dot product read
    entry by entry. -/
theorem algebraic : Cert.algebraic_KernelIdeal_ReferenceIdeal := by
  intro m ρ m' ρ' hpre hagree
  refine ⟨fun c => Cert.KernelIdeal.Tail.result m c,
    Cert.KernelIdeal.Tail.run m ρ (fun c e => Cert.PreRange.col_range _ _ _ _ _ _ (hpre c) e), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
